-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S40000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S4000x128 : Shape := ⟨2, ![4000, 128]⟩

abbrev nBuf : Space → Nat
  | .hbm => 30
  | .vmem => 16
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S1x128, .f32⟩
  | .hbm, ⟨22, _⟩ => ⟨S640000x128, .f32⟩
  | .hbm, ⟨23, _⟩ => ⟨S_, .f32⟩
  | .hbm, ⟨24, _⟩ => ⟨S40000x128, .f32⟩
  | .hbm, ⟨25, _⟩ => ⟨S640000x1, .i32⟩
  | .hbm, ⟨26, _⟩ => ⟨S40000x128, .f32⟩
  | .hbm, ⟨27, _⟩ => ⟨S1x128, .f32⟩
  | .hbm, ⟨28, _⟩ => ⟨S1x128, .f32⟩
  | .hbm, ⟨29, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S40000x128 : S_.BroadcastsInDim S40000x128 (![] : Fin 0 → Fin S40000x128.rank)
  gather_S40000x128_S640000x1_S640000x128_1_0_n_n_0_1_1128_wf : GatherDims.WF S40000x128 S640000x1 S640000x128 [1] [0] [] [0] [] 1 ![1, 128]
  dot_S4000x128_S128x128_S4000x128_1_0_0_1_n_n_wf : DotDims.WF S4000x128 S128x128 S4000x128 [1] [0] [0] [1] [] []
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S640000x128.size a
  hwx0_0 : ∀ i : grid0.Coords, EltTy.bits .f32 = 32 ∨ (Rect.block (s := S640000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S640000x128.size a
  hwx0_3 : ∀ i : grid0.Coords, EltTy.bits .f32 = 32 ∨ (Rect.block (s := S640000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S40000x128.size a
  hwx1_6 : ∀ i : grid1.Coords, EltTy.bits .f32 = 32 ∨ (Rect.block (s := S40000x128) S4000x128.size (cc1_transform_6 i) (hinb1_6 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S640000x128, .f32⟩
  | .hbm, ⟨22, _⟩ => ⟨S1x128, .f32⟩
  | .hbm, ⟨23, _⟩ => ⟨S640000x128, .f32⟩
  | .hbm, ⟨24, _⟩ => ⟨S640000x128, .f32⟩
  | .hbm, ⟨25, _⟩ => ⟨S640000x128, .f32⟩
  | .hbm, ⟨26, _⟩ => ⟨S640000x128, .f32⟩
  | .hbm, ⟨27, _⟩ => ⟨S_, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S40000x128, .f32⟩
  | .hbm, ⟨36, _⟩ => ⟨S640000x1, .i32⟩
  | .hbm, ⟨37, _⟩ => ⟨S40000x128, .f32⟩
  | .hbm, ⟨38, _⟩ => ⟨S40000x128, .f32⟩
  | .hbm, ⟨39, _⟩ => ⟨S1x128, .f32⟩
  | .hbm, ⟨40, _⟩ => ⟨S40000x128, .f32⟩
  | .hbm, ⟨41, _⟩ => ⟨S40000x128, .f32⟩
  | .hbm, ⟨42, _⟩ => ⟨S40000x128, .f32⟩
  | .hbm, ⟨43, _⟩ => ⟨S1x128, .f32⟩
  | .hbm, ⟨44, _⟩ => ⟨S40000x128, .f32⟩
  | .hbm, ⟨45, _⟩ => ⟨S40000x128, .f32⟩
  | .hbm, ⟨46, _⟩ => ⟨S40000x128, .f32⟩
  | .hbm, ⟨47, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.RowMaps.lean ====
/-
  The mathematics both programs compute, over arrays of extended reals with 128 columns.

  For an array `x` of `N` rows, a 128 × 128 matrix `w` and a bias row `b`:
    affine x w b p q  =  (∑ k, x[p,k] · w[k,q]) + b[0,q]          (row p of x·w + b, entry q)
    gated x w b       =  x ⊙ logistic (x·w + b)                     (entry by entry)
    combined x a …    =  tanh ((x·wn + bn) + (a·wg + bg))           (entry by entry)
  Both depend on `x` (and `a`) one ROW at a time: an entry in row p reads only row p.  That is what lets a grid of
  row blocks compute them block by block (`gated_rows`, `combined_rows`).
-/
import Idealize.ShloMosaic.PureOps.Ideal
import Idealize.ShloMosaic.PureOps.Ideal.Laws
import Idealize.ShloMosaic.Lib.ValueIdx

noncomputable section

namespace Cert.RowMaps

open Idealize.ShloMosaic Idealize.ShloMosaic.ValueIdx

/-- An array of `N` rows and 128 columns of extended reals. -/
abbrev Mat (N : Nat) : Type := FVec Ideal ⟨2, ![N, 128]⟩ .f32

/-- Row `p` of `x` against column `q` of `w`, plus entry `q` of the one-row bias. -/
def affine {N : Nat} (x : Mat N) (w : Mat 128) (b : Mat 1) (p : Fin N) (q : Fin 128) : EReal :=
  (∑ k : Fin 128, x (ix2 p k) * w (ix2 k q)) + b (ix2 0 q)

/-- Each entry of `x` scaled by the logistic of its row's affine image at that column. -/
def gated {N : Nat} (x : Mat N) (w : Mat 128) (b : Mat 1) : Mat N :=
  fun i => x i * Ideal.logistic (affine x w b (i 0) (i 1))

/-- The hyperbolic tangent of the sum of two affine images, one of `x` and one of `a`. -/
def combined {N : Nat} (x a : Mat N) (wn : Mat 128) (bn : Mat 1) (wg : Mat 128) (bg : Mat 1) : Mat N :=
  fun i => Ideal.tanh (affine x wn bn (i 0) (i 1) + affine a wg bg (i 0) (i 1))

theorem gated_ix2 {N : Nat} (x : Mat N) (w : Mat 128) (b : Mat 1) (p : Fin N) (q : Fin 128) :
    gated x w b (ix2 p q) = x (ix2 p q) * Ideal.logistic (affine x w b p q) := rfl

theorem combined_ix2 {N : Nat} (x a : Mat N) (wn : Mat 128) (bn : Mat 1) (wg : Mat 128) (bg : Mat 1) (p : Fin N) (q : Fin 128) :
    combined x a wn bn wg bg (ix2 p q) = Ideal.tanh (affine x wn bn p q + affine a wg bg p q) := rfl

/-- If the rows of `xb` are rows of `x` (row `p` of `xb` is row `r p` of `x`), the affine images agree there. -/
theorem affine_rows {N B : Nat} (x : Mat N) (xb : Mat B) (w : Mat 128) (b : Mat 1) (r : Fin B → Fin N)
    (h : ∀ p k, xb (ix2 p k) = x (ix2 (r p) k)) (p : Fin B) (q : Fin 128) :
    affine xb w b p q = affine x w b (r p) q := by
  unfold affine
  simp only [h]

/-- `gated` of a block of rows is the block of `gated`. -/
theorem gated_rows {N B : Nat} (x : Mat N) (xb : Mat B) (w : Mat 128) (b : Mat 1) (r : Fin B → Fin N)
    (h : ∀ p k, xb (ix2 p k) = x (ix2 (r p) k)) (p : Fin B) (q : Fin 128) :
    gated xb w b (ix2 p q) = gated x w b (ix2 (r p) q) := by
  rw [gated_ix2, gated_ix2, h, affine_rows x xb w b r h]

/-- `combined` of two blocks of the same rows is the block of `combined`. -/
theorem combined_rows {N B : Nat} (x a : Mat N) (xb ab : Mat B) (wn : Mat 128) (bn : Mat 1) (wg : Mat 128) (bg : Mat 1)
    (r : Fin B → Fin N) (hx : ∀ p k, xb (ix2 p k) = x (ix2 (r p) k)) (ha : ∀ p k, ab (ix2 p k) = a (ix2 (r p) k))
    (p : Fin B) (q : Fin 128) :
    combined xb ab wn bn wg bg (ix2 p q) = combined x a wn bn wg bg (ix2 (r p) q) := by
  rw [combined_ix2, combined_ix2, affine_rows x xb wn bn r hx, affine_rows a ab wg bg r ha]

end Cert.RowMaps

end
-- ==== Proof.Stored.lean ====
/-
  What the two kernel bodies store, as the row maps of RowMaps.lean on the loaded blocks.

  A body's matrix product into a zero accumulator is, at entry (p, q), the plain sum over the 128 contraction
  coordinates of row p of the left block against column q of the right one (`matmul_entry`); the change of float
  format before it is the identity on extended reals; the bias row is stretched over the block's rows
  (`bias_entry`).  So the edge body stores `gated` of its block and the node body stores `combined` of its two blocks.
-/
import proofs.«131143_j42399917146354_1_alg».proof.Proof.Gen.KernelIdeal.Skeleton
import proofs.«131143_j42399917146354_1_alg».proof.Proof.RowMaps
import Idealize.ShloMosaic.Lib.Pipeline.Value
import Idealize.ShloMosaic.Lib.ValueIdx
import Idealize.ShloMosaic.PureOps.Ideal.Laws

noncomputable section

namespace Cert.KernelIdeal.Stored

open Cert.KernelIdeal Cert.KernelIdeal.Gen Cert.RowMaps
open Idealize.ShloMosaic Idealize.ShloMosaic.ValueIdx

theorem lhs_axis0 (i : S4000x128.Idx) (κ : dot_S4000x128_S128x128_S4000x128_1_0_0_1_n_n.contr.Idx) :
    (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (κ : dot_S4000x128_S128x128_S4000x128_1_0_0_1_n_n.contr.Idx) :
    (dot_S4000x128_S128x128_S4000x128_1_0_0_1_n_n.lhsIdx i κ 1).val = (κ ⟨0, by decide⟩).val :=
  dot_S4000x128_S128x128_S4000x128_1_0_0_1_n_n.lhsIdx_val_of_single rfl i κ
theorem rhs_axis0 (i : S4000x128.Idx) (κ : dot_S4000x128_S128x128_S4000x128_1_0_0_1_n_n.contr.Idx) :
    (dot_S4000x128_S128x128_S4000x128_1_0_0_1_n_n.rhsIdx i κ 0).val = (κ ⟨0, by decide⟩).val :=
  dot_S4000x128_S128x128_S4000x128_1_0_0_1_n_n.rhsIdx_val_of_single rfl i κ
theorem rhs_axis1 (i : S4000x128.Idx) (κ : dot_S4000x128_S128x128_S4000x128_1_0_0_1_n_n.contr.Idx) :
    (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, q) of a block product into the zero accumulator: row p of the left against column q of the right. -/
theorem matmul_entry {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row stretched over the block's rows reads, at (p, q), the row's entry q. -/
theorem bias_entry (b : FVec Ideal S1x128 .f32) (p : Fin 4000) (q : Fin 128) :
    broadcastTo S4000x128 b broadcasts_S1x128_S4000x128 (ix2 p q) = b (ix2 0 q) :=
  broadcastTo_apply b broadcasts_S1x128_S4000x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The edge body stores its block gated by the logistic of the block's affine image. -/
theorem edge_stored (xb : Vec Ideal S4000x128 .f32) (w : Vec Ideal S128x128 .f32) (b : Vec Ideal S1x128 .f32) :
    k0_pay1 xb w b = gated (N := 4000) xb w b := by
  funext j
  obtain ⟨p, q, rfl⟩ : ∃ (p : Fin 4000) (q : Fin 128), j = ix2 p q := ⟨j 0, j 1, eq_ix2 j⟩
  unfold k0_pay1
  simp only [shapeCast_self]
  rw [gated_ix2]
  show xb (ix2 p q) * Ideal.logistic (matmul (F := Ideal) dot_S4000x128_S128x128_S4000x128_1_0_0_1_n_n none (truncf (F := Ideal) .bf16 xb bitsLt_bf16_f32) (truncf (F := Ideal) .bf16 w bitsLt_bf16_f32) (constant (F := Ideal) S4000x128 .f32 0x00000000#32) (ix2 p q) + broadcastTo S4000x128 b broadcasts_S1x128_S4000x128 (ix2 p q)) = _
  rw [matmul_entry, bias_entry]
  rfl

/-- The node body stores the hyperbolic tangent of the two blocks' affine images added. -/
theorem node_stored (xb ab : Vec Ideal S4000x128 .f32) (wn wg : Vec Ideal S128x128 .f32) (bn bg : Vec Ideal S1x128 .f32) :
    k1_pay1 xb ab wn wg bn bg = combined (N := 4000) xb ab wn bn wg bg := by
  funext j
  obtain ⟨p, q, rfl⟩ : ∃ (p : Fin 4000) (q : Fin 128), j = ix2 p q := ⟨j 0, j 1, eq_ix2 j⟩
  unfold k1_pay1
  simp only [shapeCast_self]
  rw [combined_ix2]
  show Ideal.tanh ((matmul (F := Ideal) dot_S4000x128_S128x128_S4000x128_1_0_0_1_n_n none (truncf (F := Ideal) .bf16 xb bitsLt_bf16_f32) (truncf (F := Ideal) .bf16 wn bitsLt_bf16_f32) (constant (F := Ideal) S4000x128 .f32 0x00000000#32) (ix2 p q) + broadcastTo S4000x128 bn broadcasts_S1x128_S4000x128 (ix2 p q))
      + (matmul (F := Ideal) dot_S4000x128_S128x128_S4000x128_1_0_0_1_n_n none (truncf (F := Ideal) .bf16 ab bitsLt_bf16_f32) (truncf (F := Ideal) .bf16 wg bitsLt_bf16_f32) (constant (F := Ideal) S4000x128 .f32 0x00000000#32) (ix2 p q) + broadcastTo S4000x128 bg broadcasts_S1x128_S4000x128 (ix2 p q))) = _
  rw [matmul_entry, matmul_entry, bias_entry, bias_entry]
  rfl

end Cert.KernelIdeal.Stored

end
-- ==== Proof.Arrays.lean ====
/-
  What each region leaves in its output array, for any contents `V` the region is entered from.

  Region 0 runs the edge body on 160 blocks of 4000 rows: block t of the output is `gated` of block t of the
  gathered rows, and since `gated` works a row at a time the blocks assemble to `gated` of the whole array.
  Region 1 runs the node body on 10 blocks of 4000 rows and assembles `combined` the same way.  The weights and the
  bias rows are read whole at every point (their block index is zero on both axes).
-/
import proofs.«131143_j42399917146354_1_alg».proof.Proof.Gen.KernelIdeal.Frame
import proofs.«131143_j42399917146354_1_alg».proof.Proof.Stored
import proofs.«131143_j42399917146354_1_alg».proof.Proof.RowMaps
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Stored Cert.RowMaps
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the gated edge rows -/

/-- The arrays region 0 reads, at their literal types: the gathered rows, the gate's matrix and its bias row. -/
abbrev edgeRows (c : Dev nD) : Mat 640000 := V c main_v10
abbrev gateMat (c : Dev nD) : Mat 128 := V c main_arg6
abbrev gateBias (c : Dev nD) : Mat 1 := V c main_v11

/-- The blocks the edge body loads at point `t`, at their literal types. -/
abbrev edgeBlk (c : Dev nD) (t : Fin cfg0.N) : Mat 4000 := iblk0 V c 0 t
abbrev gateMatBlk (c : Dev nD) (t : Fin cfg0.N) : Mat 128 := iblk0 V c 1 t
abbrev gateBiasBlk (c : Dev nD) (t : Fin cfg0.N) : Mat 1 := iblk0 V c 2 t

/-- The printed index maps over the grid: the row windows move with the point, the others stay at block zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt0 (t : Fin cfg0.N) : t.val < 160 := Nat.lt_of_lt_of_eq t.isLt N_0

/-- Row `p` of block `t` is row `4000 t + p` of the array. -/
def row0 (t : Fin cfg0.N) (p : Fin 4000) : Fin 640000 := ⟨4000 * t.val + p.val, by have := lt0 t; have := p.isLt; omega⟩

/-- Block `t` of the gathered rows, entry by entry. -/
theorem edgeBlk_apply (c : Dev nD) (t : Fin cfg0.N) (p : Fin 4000) (k : Fin 128) :
    edgeBlk V c t (ix2 p k) = edgeRows V c (ix2 (row0 t p) k) := by
  obtain ⟨e0, e1, -⟩ := idx_facts0 t
  show iblk0 V c 0 t (ix2 p k) = V c main_v10 (ix2 (row0 t p) k)
  unfold iblk0
  rw [View.read_apply]
  show V c main_v10 _ = V c main_v10 _
  congr 1
  funext a
  apply Fin.ext
  match a with
  | ⟨0, _⟩ => show win0_0.index t 0 * 4000 + 1 * p.val = 4000 * t.val + p.val; rw [e0]; omega
  | ⟨1, _⟩ => show win0_0.index t 1 * 128 + 1 * k.val = k.val; rw [e1]; omega

/-- The gate's matrix is loaded whole at every point. -/
theorem gateMatBlk_eq (c : Dev nD) (t : Fin cfg0.N) : gateMatBlk V c t = gateMat V c := by
  obtain ⟨-, -, e2, e3, -⟩ := idx_facts0 t
  funext y
  show iblk0 V c 1 t y = V c main_arg6 y
  unfold iblk0
  rw [View.read_apply]
  show V c main_arg6 _ = V c main_arg6 _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- So is its bias row. -/
theorem gateBiasBlk_eq (c : Dev nD) (t : Fin cfg0.N) : gateBiasBlk V c t = gateBias V c := by
  obtain ⟨-, -, -, -, e4, e5, -⟩ := idx_facts0 t
  funext y
  show iblk0 V c 2 t y = V c main_v11 y
  unfold iblk0
  rw [View.read_apply]
  show V c main_v11 _ = V c main_v11 _
  congr 1
  funext a
  apply Fin.ext
  match a with
  | ⟨0, _⟩ => show win0_2.index t 0 * 1 + 1 * (y 0).val = (y 0).val; rw [e4]; omega
  | ⟨1, _⟩ => show win0_2.index t 1 * 128 + 1 * (y 1).val = (y 1).val; rw [e5]; omega

/-- What point `t` writes back is block `t` of `gated` of the whole arrays. -/
theorem edge_flushed (c : Dev nD) (t : Fin cfg0.N) :
    (dat0 V c).flushed 3 t = ((cfg0.win 3).blk t).view.read (Elt Ideal) (gated (edgeRows V c) (gateMat V c) (gateBias V c)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S1x128) hz]
  obtain ⟨-, -, -, -, -, -, e6, e7⟩ := idx_facts0 t
  funext j
  obtain ⟨p, q, rfl⟩ : ∃ (p : Fin 4000) (q : Fin 128), j = ix2 p q := ⟨j 0, j 1, eq_ix2 j⟩
  show k0_pay1 (edgeBlk V c t) (gateMatBlk V c t) (gateBiasBlk V c t) (ix2 p q)
    = gated (edgeRows V c) (gateMat V c) (gateBias V c) (((cfg0.win 3).blk t).view.emb (ix2 p q))
  have hemb : ((cfg0.win 3).blk t).view.emb (ix2 p q) = ix2 (row0 t p) q := by
    funext a
    apply Fin.ext
    match a with
    | ⟨0, _⟩ => show win0_3.index t 0 * 4000 + 1 * p.val = 4000 * t.val + p.val; rw [e6]; omega
    | ⟨1, _⟩ => show win0_3.index t 1 * 128 + 1 * q.val = q.val; rw [e7]; omega
  refine (congrFun (edge_stored (edgeBlk V c t) (gateMatBlk V c t) (gateBiasBlk V c t)) (ix2 p q)).trans ?_
  refine Eq.trans ?_ (congrArg (gated (edgeRows V c) (gateMat V c) (gateBias V c)) hemb).symm
  rw [gateMatBlk_eq, gateBiasBlk_eq]
  exact gated_rows (edgeRows V c) (edgeBlk V c t) (gateMat V c) (gateBias V c) (row0 t) (edgeBlk_apply V c t) p q

/-- An index of the array is in point `t`'s block iff each coordinate is in the block's range. -/
theorem mem_blk0 (t : Fin cfg0.N) (i : S640000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v12).slice (win0_3.rect t)).set ↔ _
  rw [View.set_slice_whole, Rect.mem_set_unit]
  exact Iff.rfl

/-- Every row lies in the block of the point that is its number divided by 4000. -/
theorem edge_cover (i : S640000x128.Idx) : ∃ t : Fin cfg0.N, (cfg0.win 3).flush t = true ∧ i ∈ ((cfg0.win 3).blk t).view.set := by
  have hi0 : (i 0).val < 640000 := (i 0).isLt
  have hi1 : (i 1).val < 128 := (i 1).isLt
  let t : Fin cfg0.N := ⟨(i 0).val / 4000, by rw [show cfg0.N = 160 from N_0]; omega⟩
  obtain ⟨-, -, -, -, -, -, e6, e7⟩ := idx_facts0 t
  have ht : t.val = (i 0).val / 4000 := rfl
  refine ⟨t, flush0_3 t, ?_⟩
  rw [mem_blk0]
  intro a
  match a with
  | ⟨0, _⟩ => show win0_3.index t 0 * 4000 ≤ (i 0).val ∧ (i 0).val < win0_3.index t 0 * 4000 + 4000; rw [e6, ht]; omega
  | ⟨1, _⟩ => show win0_3.index t 1 * 128 ≤ (i 1).val ∧ (i 1).val < win0_3.index t 1 * 128 + 128; rw [e7]; omega

/-- REGION 0's OUTPUT ARRAY after its run: the gathered rows gated. -/
theorem edge_array (c : Dev nD) :
    (dat0 V c).arrAt 3 cfg0.N = gated (edgeRows V c) (gateMat V c) (gateBias V c) :=
  (dat0 V c).arrAt_eq_of_cover 3 (gated (edgeRows V c) (gateMat V c) (gateBias V c)) (fun t _ => edge_flushed V c t) edge_cover

/-! ## Region 1: the combined node rows -/

abbrev nodeRows (c : Dev nD) : Mat 40000 := V c main_arg0
abbrev aggRows (c : Dev nD) : Mat 40000 := V c main_v15
abbrev nodeMat (c : Dev nD) : Mat 128 := V c main_arg2
abbrev nodeBias (c : Dev nD) : Mat 1 := V c main_v16
abbrev aggMat (c : Dev nD) : Mat 128 := V c main_arg4
abbrev aggBias (c : Dev nD) : Mat 1 := V c main_v17

abbrev nodeBlk (c : Dev nD) (t : Fin cfg1.N) : Mat 4000 := iblk1 V c 0 t
abbrev aggBlk (c : Dev nD) (t : Fin cfg1.N) : Mat 4000 := iblk1 V c 1 t
abbrev nodeMatBlk (c : Dev nD) (t : Fin cfg1.N) : Mat 128 := iblk1 V c 2 t
abbrev nodeBiasBlk (c : Dev nD) (t : Fin cfg1.N) : Mat 1 := iblk1 V c 3 t
abbrev aggMatBlk (c : Dev nD) (t : Fin cfg1.N) : Mat 128 := iblk1 V c 4 t
abbrev aggBiasBlk (c : Dev nD) (t : Fin cfg1.N) : Mat 1 := iblk1 V c 5 t

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem lt1 (t : Fin cfg1.N) : t.val < 10 := Nat.lt_of_lt_of_eq t.isLt N_1

def row1 (t : Fin cfg1.N) (p : Fin 4000) : Fin 40000 := ⟨4000 * t.val + p.val, by have := lt1 t; have := p.isLt; omega⟩

theorem nodeBlk_apply (c : Dev nD) (t : Fin cfg1.N) (p : Fin 4000) (k : Fin 128) :
    nodeBlk V c t (ix2 p k) = nodeRows V c (ix2 (row1 t p) k) := by
  obtain ⟨e0, e1, -⟩ := idx_facts1 t
  show iblk1 V c 0 t (ix2 p k) = V c main_arg0 (ix2 (row1 t p) k)
  unfold iblk1
  rw [View.read_apply]
  show V c main_arg0 _ = V c main_arg0 _
  congr 1
  funext a
  apply Fin.ext
  match a with
  | ⟨0, _⟩ => show win1_0.index t 0 * 4000 + 1 * p.val = 4000 * t.val + p.val; rw [e0]; omega
  | ⟨1, _⟩ => show win1_0.index t 1 * 128 + 1 * k.val = k.val; rw [e1]; omega

theorem aggBlk_apply (c : Dev nD) (t : Fin cfg1.N) (p : Fin 4000) (k : Fin 128) :
    aggBlk V c t (ix2 p k) = aggRows V c (ix2 (row1 t p) k) := by
  obtain ⟨-, -, e0, e1, -⟩ := idx_facts1 t
  show iblk1 V c 1 t (ix2 p k) = V c main_v15 (ix2 (row1 t p) k)
  unfold iblk1
  rw [View.read_apply]
  show V c main_v15 _ = V c main_v15 _
  congr 1
  funext a
  apply Fin.ext
  match a with
  | ⟨0, _⟩ => show win1_1.index t 0 * 4000 + 1 * p.val = 4000 * t.val + p.val; rw [e0]; omega
  | ⟨1, _⟩ => show win1_1.index t 1 * 128 + 1 * k.val = k.val; rw [e1]; omega

theorem nodeMatBlk_eq (c : Dev nD) (t : Fin cfg1.N) : nodeMatBlk V c t = nodeMat V c := by
  obtain ⟨-, -, -, -, e0, e1, -⟩ := idx_facts1 t
  funext y
  show iblk1 V c 2 t y = V c main_arg2 y
  unfold iblk1
  rw [View.read_apply]
  show V c main_arg2 _ = V c main_arg2 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

theorem nodeBiasBlk_eq (c : Dev nD) (t : Fin cfg1.N) : nodeBiasBlk V c t = nodeBias V c := by
  obtain ⟨-, -, -, -, -, -, e0, e1, -⟩ := idx_facts1 t
  funext y
  show iblk1 V c 3 t y = V c main_v16 y
  unfold iblk1
  rw [View.read_apply]
  show V c main_v16 _ = V c main_v16 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

theorem aggMatBlk_eq (c : Dev nD) (t : Fin cfg1.N) : aggMatBlk V c t = aggMat V c := by
  obtain ⟨-, -, -, -, -, -, -, -, e0, e1, -⟩ := idx_facts1 t
  funext y
  show iblk1 V c 4 t y = V c main_arg4 y
  unfold iblk1
  rw [View.read_apply]
  show V c main_arg4 _ = V c main_arg4 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

theorem aggBiasBlk_eq (c : Dev nD) (t : Fin cfg1.N) : aggBiasBlk V c t = aggBias V c := by
  obtain ⟨-, -, -, -, -, -, -, -, -, -, e0, e1, -⟩ := idx_facts1 t
  funext y
  show iblk1 V c 5 t y = V c main_v17 y
  unfold iblk1
  rw [View.read_apply]
  show V c main_v17 _ = V c main_v17 _
  congr 1
  funext a
  apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega

/-- What point `t` writes back is block `t` of `combined` of the whole arrays. -/
theorem node_flushed (c : Dev nD) (t : Fin cfg1.N) :
    (dat1 V c).flushed 6 t = ((cfg1.win 6).blk t).view.read (Elt Ideal)
      (combined (nodeRows V c) (aggRows V c) (nodeMat V c) (nodeBias V c) (aggMat V c) (aggBias V c)) := by
  show (cfg1.win 6).cut (grid1.coords t) ((dat1 V c).after 6 t) = _
  rw [after1_6]
  unfold out1_6
  rw [View.canon_unit_zero hz]
  simp only [View.ld_unit_zero (S := S4000x128) hz, View.ld_unit_zero (S := S128x128) hz, View.ld_unit_zero (S := S1x128) hz]
  obtain ⟨-, -, -, -, -, -, -, -, -, -, -, -, e6, e7⟩ := idx_facts1 t
  funext j
  obtain ⟨p, q, rfl⟩ : ∃ (p : Fin 4000) (q : Fin 128), j = ix2 p q := ⟨j 0, j 1, eq_ix2 j⟩
  show k1_pay1 (nodeBlk V c t) (aggBlk V c t) (nodeMatBlk V c t) (aggMatBlk V c t) (nodeBiasBlk V c t) (aggBiasBlk V c t) (ix2 p q)
    = combined (nodeRows V c) (aggRows V c) (nodeMat V c) (nodeBias V c) (aggMat V c) (aggBias V c) (((cfg1.win 6).blk t).view.emb (ix2 p q))
  have hemb : ((cfg1.win 6).blk t).view.emb (ix2 p q) = ix2 (row1 t p) q := by
    funext a
    apply Fin.ext
    match a with
    | ⟨0, _⟩ => show win1_6.index t 0 * 4000 + 1 * p.val = 4000 * t.val + p.val; rw [e6]; omega
    | ⟨1, _⟩ => show win1_6.index t 1 * 128 + 1 * q.val = q.val; rw [e7]; omega
  refine (congrFun (node_stored (nodeBlk V c t) (aggBlk V c t) (nodeMatBlk V c t) (aggMatBlk V c t) (nodeBiasBlk V c t) (aggBiasBlk V c t)) (ix2 p q)).trans ?_
  refine Eq.trans ?_ (congrArg (combined (nodeRows V c) (aggRows V c) (nodeMat V c) (nodeBias V c) (aggMat V c) (aggBias V c)) hemb).symm
  rw [nodeMatBlk_eq, nodeBiasBlk_eq, aggMatBlk_eq, aggBiasBlk_eq]
  exact combined_rows (nodeRows V c) (aggRows V c) (nodeBlk V c t) (aggBlk V c t) (nodeMat V c) (nodeBias V c) (aggMat V c) (aggBias V c)
    (row1 t) (nodeBlk_apply V c t) (aggBlk_apply V c t) p q

theorem mem_blk1 (t : Fin cfg1.N) (i : S40000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v18).slice (win1_6.rect t)).set ↔ _
  rw [View.set_slice_whole, Rect.mem_set_unit]
  exact Iff.rfl

theorem node_cover (i : S40000x128.Idx) : ∃ t : Fin cfg1.N, (cfg1.win 6).flush t = true ∧ i ∈ ((cfg1.win 6).blk t).view.set := by
  have hi0 : (i 0).val < 40000 := (i 0).isLt
  have hi1 : (i 1).val < 128 := (i 1).isLt
  let t : Fin cfg1.N := ⟨(i 0).val / 4000, by rw [show cfg1.N = 10 from N_1]; omega⟩
  obtain ⟨-, -, -, -, -, -, -, -, -, -, -, -, e6, e7⟩ := idx_facts1 t
  have ht : t.val = (i 0).val / 4000 := rfl
  refine ⟨t, flush1_6 t, ?_⟩
  rw [mem_blk1]
  intro a
  match a with
  | ⟨0, _⟩ => show win1_6.index t 0 * 4000 ≤ (i 0).val ∧ (i 0).val < win1_6.index t 0 * 4000 + 4000; rw [e6, ht]; omega
  | ⟨1, _⟩ => show win1_6.index t 1 * 128 ≤ (i 1).val ∧ (i 1).val < win1_6.index t 1 * 128 + 128; rw [e7]; omega

/-- REGION 1's OUTPUT ARRAY after its run: the node rows and the aggregated rows combined. -/
theorem node_array (c : Dev nD) :
    (dat1 V c).arrAt 6 cfg1.N = combined (nodeRows V c) (aggRows V c) (nodeMat V c) (nodeBias V c) (aggMat V c) (aggBias V c) :=
  (dat1 V c).arrAt_eq_of_cover 6 _ (fun t _ => node_flushed V c t) node_cover

end Cert.KernelIdeal.Arrays

end
-- ==== Proof.HostSide.lean ====
/-
  What the host operations of the kernel's program leave in the arrays its two regions read.

  Before region 0: the rows of the node features gathered at the edges' source endpoints (negative endpoints
  wrapped by the number of nodes, as array indexing does), the gate's matrix untouched, its bias as a one-row array.
  Between the regions: the gated edge rows scatter-added into zeros at the edges' target endpoints; the two other
  biases as one-row arrays; the node features and the two other matrices untouched.
-/
import proofs.«131143_j42399917146354_1_alg».proof.Proof.Gen.KernelIdeal.Frame
import Idealize.ShloMosaic.Lib.StableHlo.Run

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- Row `r` of the edge list (0: targets, 1: sources) as a vector of 640000 endpoints. -/
def endpoints (r : Nat) (hs : S2x640000.Slices ![r, 0] S1x640000) (ei : (⟨S2x640000, .i32⟩ : BufTy).Contents (Elt F)) :
    (⟨S640000, .i32⟩ : BufTy).Contents (Elt F) :=
  shapeCast S640000 (extractStridedSlice S1x640000 ![r, 0] ei hs) shapeCasts_S1x640000_S640000

/-- The source endpoints as the gather takes them: a negative one has the number of nodes added; one column. -/
def srcIdx (ei : (⟨S2x640000, .i32⟩ : BufTy).Contents (Elt F)) : (⟨S640000x1, .i32⟩ : BufTy).Contents (Elt F) :=
  broadcastInDim S640000x1 ![0] bcast_S640000_S640000x1_0
    (select (cmpi .slt (endpoints (F := F) 1 slices_S2x640000_S1x640000_1_0 ei) (broadcastInDim S640000 ![] bcast_S_S640000 (constantI S_ 32 0#32)))
      (addi (endpoints (F := F) 1 slices_S2x640000_S1x640000_1_0 ei) (broadcastInDim S640000 ![] bcast_S_S640000 (constantI S_ 32 40000#32)))
      (endpoints (F := F) 1 slices_S2x640000_S1x640000_1_0 ei))

/-- The target endpoints as the scatter takes them: one column. -/
def dstIdx (ei : (⟨S2x640000, .i32⟩ : BufTy).Contents (Elt F)) : (⟨S640000x1, .i32⟩ : BufTy).Contents (Elt F) :=
  broadcastInDim S640000x1 ![0] bcast_S640000_S640000x1_0 (endpoints (F := F) 0 slices_S2x640000_S1x640000_0_0 ei)

/-- A vector of 128 as a one-row array. -/
def asRow (b : (⟨S128, .f32⟩ : BufTy).Contents (Elt F)) : (⟨S1x128, .f32⟩ : BufTy).Contents (Elt F) :=
  shapeCast S1x128 b shapeCasts_S128_S1x128

/-- The gathered source rows. -/
def gatherRows (x : (⟨S40000x128, .f32⟩ : BufTy).Contents (Elt F)) (ei : (⟨S2x640000, .i32⟩ : BufTy).Contents (Elt F)) :
    (⟨S640000x128, .f32⟩ : BufTy).Contents (Elt F) :=
  Host.gather gather_S40000x128_S640000x1_S640000x128_1_0_n_n_0_1_1128 x (srcIdx (F := F) ei)

/-- Edge rows scatter-added into zeros at the target endpoints. -/
def scatterRows (ei : (⟨S2x640000, .i32⟩ : BufTy).Contents (Elt F)) (u : (⟨S640000x128, .f32⟩ : BufTy).Contents (Elt F)) :
    (⟨S40000x128, .f32⟩ : BufTy).Contents (Elt F) :=
  Host.scatterAdd scatter_S40000x128_S640000x1_S640000x128_1_0_0_1
    (broadcastInDim S40000x128 ![] bcast_S_S40000x128 (constant (F := F) S_ .f32 0x00000000#32)) (dstIdx (F := F) ei) u

/-! ## The first stretch, from any contents `X` -/

theorem ops0_gathered (X : Valuation τ sig (Elt F)) :
    StableHlo.after (hostOps0 (F := F)) X (Proc.devRef .tc main_v10)
      = gatherRows (F := F) (X (Proc.devRef .tc main_arg0)) (X (Proc.devRef .tc main_arg1)) := by
  after_results; rfl
theorem ops0_gateBias (X : Valuation τ sig (Elt F)) :
    StableHlo.after (hostOps0 (F := F)) X (Proc.devRef .tc main_v11) = asRow (F := F) (X (Proc.devRef .tc main_arg7)) := by
  after_results; rfl
theorem ops0_targets (X : Valuation τ sig (Elt F)) :
    StableHlo.after (hostOps0 (F := F)) X (Proc.devRef .tc main_v1)
      = endpoints (F := F) 0 slices_S2x640000_S1x640000_0_0 (X (Proc.devRef .tc main_arg1)) := by
  after_results; rfl
theorem ops0_arg0 (X : Valuation τ sig (Elt F)) :
    StableHlo.after (hostOps0 (F := F)) X (Proc.devRef .tc main_arg0) = X (Proc.devRef .tc main_arg0) := by after_results
theorem ops0_arg2 (X : Valuation τ sig (Elt F)) :
    StableHlo.after (hostOps0 (F := F)) X (Proc.devRef .tc main_arg2) = X (Proc.devRef .tc main_arg2) := by after_results
theorem ops0_arg3 (X : Valuation τ sig (Elt F)) :
    StableHlo.after (hostOps0 (F := F)) X (Proc.devRef .tc main_arg3) = X (Proc.devRef .tc main_arg3) := by after_results
theorem ops0_arg4 (X : Valuation τ sig (Elt F)) :
    StableHlo.after (hostOps0 (F := F)) X (Proc.devRef .tc main_arg4) = X (Proc.devRef .tc main_arg4) := by after_results
theorem ops0_arg5 (X : Valuation τ sig (Elt F)) :
    StableHlo.after (hostOps0 (F := F)) X (Proc.devRef .tc main_arg5) = X (Proc.devRef .tc main_arg5) := by after_results
theorem ops0_arg6 (X : Valuation τ sig (Elt F)) :
    StableHlo.after (hostOps0 (F := F)) X (Proc.devRef .tc main_arg6) = X (Proc.devRef .tc main_arg6) := by after_results

/-! ## The second stretch, from any contents `X` -/

theorem ops1_scattered (X : Valuation τ sig (Elt F)) :
    StableHlo.after (hostOps1 (F := F)) X (Proc.devRef .tc main_v15)
      = Host.scatterAdd scatter_S40000x128_S640000x1_S640000x128_1_0_0_1
          (broadcastInDim S40000x128 ![] bcast_S_S40000x128 (constant (F := F) S_ .f32 0x00000000#32))
          (broadcastInDim S640000x1 ![0] bcast_S640000_S640000x1_0 (X (Proc.devRef .tc main_v1))) (X (Proc.devRef .tc main_v12)) := by
  after_results
theorem ops1_nodeBias (X : Valuation τ sig (Elt F)) :
    StableHlo.after (hostOps1 (F := F)) X (Proc.devRef .tc main_v16) = asRow (F := F) (X (Proc.devRef .tc main_arg3)) := by
  after_results; rfl
theorem ops1_aggBias (X : Valuation τ sig (Elt F)) :
    StableHlo.after (hostOps1 (F := F)) X (Proc.devRef .tc main_v17) = asRow (F := F) (X (Proc.devRef .tc main_arg5)) := by
  after_results; rfl
theorem ops1_arg0 (X : Valuation τ sig (Elt F)) :
    StableHlo.after (hostOps1 (F := F)) X (Proc.devRef .tc main_arg0) = X (Proc.devRef .tc main_arg0) := by after_results
theorem ops1_arg2 (X : Valuation τ sig (Elt F)) :
    StableHlo.after (hostOps1 (F := F)) X (Proc.devRef .tc main_arg2) = X (Proc.devRef .tc main_arg2) := by after_results
theorem ops1_arg4 (X : Valuation τ sig (Elt F)) :
    StableHlo.after (hostOps1 (F := F)) X (Proc.devRef .tc main_arg4) = X (Proc.devRef .tc main_arg4) := by after_results

/-! ## At the two regions' entries -/

variable (m : (ℓ : Loc nD τ sig) → Buf (Elt F) ℓ) (ρ : Dev nD → PrngReg)

theorem entry0_gathered (c : Dev nD) :
    V1 m ρ c main_v10 = gatherRows (F := F) (m ((c : Thread nD τ).loc main_arg0)) (m ((c : Thread nD τ).loc main_arg1)) :=
  ops0_gathered (W0 m ρ c)
theorem entry0_gateMat (c : Dev nD) : V1 m ρ c main_arg6 = m ((c : Thread nD τ).loc main_arg6) :=
  ops0_arg6 (W0 m ρ c)
theorem entry0_gateBias (c : Dev nD) : V1 m ρ c main_v11 = asRow (F := F) (m ((c : Thread nD τ).loc main_arg7)) :=
  ops0_gateBias (W0 m ρ c)

/-- A buffer region 0 does not touch and the first stretch does not write holds its launch contents at region 0's exit. -/
theorem exit0_arg0 (c : Dev nD) : W2 m ρ c (Proc.devRef .tc main_arg0) = m ((c : Thread nD τ).loc main_arg0) :=
  (W2_of_ne m ρ c main_arg0 (by decide)).trans (ops0_arg0 (W0 m ρ c))
theorem exit0_arg2 (c : Dev nD) : W2 m ρ c (Proc.devRef .tc main_arg2) = m ((c : Thread nD τ).loc main_arg2) :=
  (W2_of_ne m ρ c main_arg2 (by decide)).trans (ops0_arg2 (W0 m ρ c))
theorem exit0_arg3 (c : Dev nD) : W2 m ρ c (Proc.devRef .tc main_arg3) = m ((c : Thread nD τ).loc main_arg3) :=
  (W2_of_ne m ρ c main_arg3 (by decide)).trans (ops0_arg3 (W0 m ρ c))
theorem exit0_arg4 (c : Dev nD) : W2 m ρ c (Proc.devRef .tc main_arg4) = m ((c : Thread nD τ).loc main_arg4) :=
  (W2_of_ne m ρ c main_arg4 (by decide)).trans (ops0_arg4 (W0 m ρ c))
theorem exit0_arg5 (c : Dev nD) : W2 m ρ c (Proc.devRef .tc main_arg5) = m ((c : Thread nD τ).loc main_arg5) :=
  (W2_of_ne m ρ c main_arg5 (by decide)).trans (ops0_arg5 (W0 m ρ c))
theorem exit0_targets (c : Dev nD) :
    W2 m ρ c (Proc.devRef .tc main_v1) = endpoints (F := F) 0 slices_S2x640000_S1x640000_0_0 (m ((c : Thread nD τ).loc main_arg1)) :=
  (W2_of_ne m ρ c main_v1 (by decide)).trans (ops0_targets (W0 m ρ c))

theorem entry1_nodeRows (c : Dev nD) : V3 m ρ c main_arg0 = m ((c : Thread nD τ).loc main_arg0) :=
  (ops1_arg0 (W2 m ρ c)).trans (exit0_arg0 m ρ c)
theorem entry1_nodeMat (c : Dev nD) : V3 m ρ c main_arg2 = m ((c : Thread nD τ).loc main_arg2) :=
  (ops1_arg2 (W2 m ρ c)).trans (exit0_arg2 m ρ c)
theorem entry1_aggMat (c : Dev nD) : V3 m ρ c main_arg4 = m ((c : Thread nD τ).loc main_arg4) :=
  (ops1_arg4 (W2 m ρ c)).trans (exit0_arg4 m ρ c)
theorem entry1_nodeBias (c : Dev nD) : V3 m ρ c main_v16 = asRow (F := F) (m ((c : Thread nD τ).loc main_arg3)) :=
  (ops1_nodeBias (W2 m ρ c)).trans (congrArg (asRow (F := F)) (exit0_arg3 m ρ c))
theorem entry1_aggBias (c : Dev nD) : V3 m ρ c main_v17 = asRow (F := F) (m ((c : Thread nD τ).loc main_arg5)) :=
  (ops1_aggBias (W2 m ρ c)).trans (congrArg (asRow (F := F)) (exit0_arg5 m ρ c))
/-- The aggregated rows region 1 reads: what region 0 left in its output array, scatter-added at the targets. -/
theorem entry1_aggRows (c : Dev nD) :
    V3 m ρ c main_v15 = scatterRows (F := F) (m ((c : Thread nD τ).loc main_arg1)) ((dat0 (V1 m ρ) c).arrAt 3 cfg0.N) := by
  refine (ops1_scattered (W2 m ρ c)).trans ?_
  rw [exit0_targets m ρ c, W2_arr m ρ c 3]
  rfl

end Cert.KernelIdeal.HostSide

end
-- ==== Proof.RefStages.lean ====
/-
  The reference's stages in the vocabulary of RowMaps.lean.

  Its gated edge rows: the product of a gathered row entry with `1 / (1 + exp (-(row·W + b)))`, which is the
  logistic of the affine image (the literal `1.0` denotes the extended real 1).  Its result: the hyperbolic tangent
  of the two affine images added.  The gather and the scatter-add are not opened: both programs apply the same ones.
-/
import proofs.«131143_j42399917146354_1_alg».proof.Proof.Gen.ReferenceIdeal.Read
import proofs.«131143_j42399917146354_1_alg».proof.Proof.RowMaps
import Idealize.ShloMosaic.Lib.Pipeline.Value
import Idealize.ShloMosaic.Lib.ValueIdx
import Idealize.ShloMosaic.PureOps.Ideal.Laws
import Idealize.ShloMosaic.PureOps.IdealRules

noncomputable section

namespace Cert.ReferenceIdeal.Stages

open Cert.ReferenceIdeal Cert.ReferenceIdeal.Gen Cert.ReferenceIdeal.Read Cert.RowMaps
open Idealize.ShloMosaic Idealize.ShloMosaic.ValueIdx

/-- The reference's spelling of the logistic: the quotient of the literal one by one plus the exponential of the negation. -/
theorem logistic_spelt (y : EReal) :
    Ideal.div (Ideal.ofBits .f32 0x3F800000#32) (Ideal.ofBits .f32 0x3F800000#32 + Ideal.exp (-y)) = Ideal.logistic y := by
  have h1 : Ideal.ofBits .f32 0x3F800000#32 = 1 := IdealRules.sign_bit.ideal_onePat .f32
  rw [h1]
  rfl

/-- The reference's gated edge rows are `gated` of its gathered rows. -/
theorem edge_rows (x0 : (⟨S40000x128, .f32⟩ : BufTy).Contents (Elt Ideal)) (x1 : (⟨S2x640000, .i32⟩ : BufTy).Contents (Elt Ideal))
    (x6 : (⟨S128x128, .f32⟩ : BufTy).Contents (Elt Ideal)) (x7 : (⟨S128, .f32⟩ : BufTy).Contents (Elt Ideal)) :
    val_main_v21 (F := Ideal) x0 x1 x6 x7
      = gated (N := 640000) (val_main_v10 (F := Ideal) x0 x1) x6 (val_main_v12 (F := Ideal) x7) := by
  funext i
  obtain ⟨e, q, rfl⟩ : ∃ (e : Fin 640000) (q : Fin 128), i = ix2 e q := ⟨i 0, i 1, eq_ix2 i⟩
  have hl : ∀ k : Fin 128, lidx_main_v11 (ix2 e q) k = ix2 e k := fun k => funext fun a => Fin.ext (by
    match a with | ⟨0, _⟩ => rfl | ⟨1, _⟩ => rfl)
  have hr : ∀ k : Fin 128, ridx_main_v11 (ix2 e q) k = ix2 k q := fun k => funext fun a => Fin.ext (by
    match a with | ⟨0, _⟩ => rfl | ⟨1, _⟩ => rfl)
  have hb : idx_main_v13 (ix2 e q) = ix2 0 q := funext fun a => Fin.ext (by
    match a with | ⟨0, _⟩ => rfl | ⟨1, _⟩ => rfl)
  rw [gated_ix2, val_main_v21_apply, val_main_v20_apply, val_main_v19_apply, val_main_cst_1_apply, val_main_v18_apply,
    val_main_v17_apply, val_main_cst_apply, val_main_v16_apply, val_main_v15_apply, val_main_v14_apply, val_main_v11_apply,
    val_main_v13_apply]
  simp only [hl, hr, hb]
  unfold affine
  rw [← logistic_spelt]
  rfl

/-- The reference's result is `combined` of the node features and its aggregated rows. -/
theorem result_rows (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v34 (F := Ideal) x0 x1 x2 x3 x4 x5 x6 x7
      = combined (N := 40000) x0 (val_main_v24 (F := Ideal) x0 x1 x6 x7) x2 (val_main_v26 (F := Ideal) x3) x4 (val_main_v30 (F := Ideal) x5) := by
  funext i
  obtain ⟨p, q, rfl⟩ : ∃ (p : Fin 40000) (q : Fin 128), i = ix2 p q := ⟨i 0, i 1, eq_ix2 i⟩
  have hl25 : ∀ k : Fin 128, lidx_main_v25 (ix2 p q) k = ix2 p k := fun k => funext fun a => Fin.ext (by
    match a with | ⟨0, _⟩ => rfl | ⟨1, _⟩ => rfl)
  have hr25 : ∀ k : Fin 128, ridx_main_v25 (ix2 p q) k = ix2 k q := fun k => funext fun a => Fin.ext (by
    match a with | ⟨0, _⟩ => rfl | ⟨1, _⟩ => rfl)
  have hl29 : ∀ k : Fin 128, lidx_main_v29 (ix2 p q) k = ix2 p k := fun k => funext fun a => Fin.ext (by
    match a with | ⟨0, _⟩ => rfl | ⟨1, _⟩ => rfl)
  have hr29 : ∀ k : Fin 128, ridx_main_v29 (ix2 p q) k = ix2 k q := fun k => funext fun a => Fin.ext (by
    match a with | ⟨0, _⟩ => rfl | ⟨1, _⟩ => rfl)
  have hb27 : idx_main_v27 (ix2 p q) = ix2 0 q := funext fun a => Fin.ext (by
    match a with | ⟨0, _⟩ => rfl | ⟨1, _⟩ => rfl)
  have hb31 : idx_main_v31 (ix2 p q) = ix2 0 q := funext fun a => Fin.ext (by
    match a with | ⟨0, _⟩ => rfl | ⟨1, _⟩ => rfl)
  rw [combined_ix2, val_main_v34_apply, val_main_v33_apply, val_main_v28_apply, val_main_v25_apply, val_main_v27_apply,
    val_main_v32_apply, val_main_v29_apply, val_main_v31_apply]
  simp only [hl25, hr25, hl29, hr29, hb27, hb31]
  unfold affine
  rfl

end Cert.ReferenceIdeal.Stages

end
-- ==== Proof.Result.lean ====
/-
  The kernel's program as ONE function of its arguments, and that function against the reference's.

  The result buffer ends at `combined` of the node features and of the aggregated rows — the gated gathered rows
  scatter-added at the edges' targets —, because region 1 leaves `combined` of what it is entered from, region 0
  leaves `gated` of what it is entered from, and the host operations around them are the gather, the scatter-add and
  the three bias reshapes.  The reference composes the same maps in the same order; its bias rows are spelt as
  broadcasts where the kernel's are reshapes (one row either way).
-/
import proofs.«131143_j42399917146354_1_alg».proof.Proof.KernelRun
import proofs.«131143_j42399917146354_1_alg».proof.Proof.Arrays
import proofs.«131143_j42399917146354_1_alg».proof.Proof.HostSide
import proofs.«131143_j42399917146354_1_alg».proof.Proof.RefStages

noncomputable section

namespace Cert.KernelIdeal.Result

open Cert.KernelIdeal Cert.KernelIdeal.Gen Cert.RowMaps
open Idealize.ShloMosaic Idealize.ShloMosaic.TcCoe Idealize.SL.Sem

/-- The program's result as a function of its eight arguments. -/
def value (x : (⟨S40000x128, .f32⟩ : BufTy).Contents (Elt Ideal)) (ei : (⟨S2x640000, .i32⟩ : BufTy).Contents (Elt Ideal))
    (wn : (⟨S128x128, .f32⟩ : BufTy).Contents (Elt Ideal)) (bn : (⟨S128, .f32⟩ : BufTy).Contents (Elt Ideal))
    (wg : (⟨S128x128, .f32⟩ : BufTy).Contents (Elt Ideal)) (bg : (⟨S128, .f32⟩ : BufTy).Contents (Elt Ideal))
    (wa : (⟨S128x128, .f32⟩ : BufTy).Contents (Elt Ideal)) (ba : (⟨S128, .f32⟩ : BufTy).Contents (Elt Ideal)) : Mat 40000 :=
  combined (N := 40000) x
    (HostSide.scatterRows (F := Ideal) ei (gated (N := 640000) (HostSide.gatherRows (F := Ideal) x ei) wa (HostSide.asRow (F := Ideal) ba)))
    wn (HostSide.asRow (F := Ideal) bn) wg (HostSide.asRow (F := Ideal) bg)

variable (m : (ℓ : Loc nD τ sig) → Buf (Elt Ideal) ℓ) (ρ : Dev nD → PrngReg)

/-- What region 0 leaves in its output array, in the launch contents. -/
theorem edge_value (c : Dev nD) :
    (dat0 (V1 m ρ) c).arrAt 3 cfg0.N
      = gated (N := 640000) (HostSide.gatherRows (F := Ideal) (m ((c : Thread nD τ).loc main_arg0)) (m ((c : Thread nD τ).loc main_arg1)))
          (m ((c : Thread nD τ).loc main_arg6)) (HostSide.asRow (F := Ideal) (m ((c : Thread nD τ).loc main_arg7))) := by
  rw [Arrays.edge_array (V1 m ρ) c]
  show gated (N := 640000) (V1 m ρ c main_v10) (V1 m ρ c main_arg6) (V1 m ρ c main_v11) = _
  rw [HostSide.entry0_gathered m ρ c, HostSide.entry0_gateMat m ρ c, HostSide.entry0_gateBias m ρ c]

/-- The result buffer after the run, in the launch contents. -/
theorem result_value (c : Dev nD) :
    W4 m ρ c (Proc.devRef .tc main_v18) = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Named.result_eq m ρ c, Arrays.node_array (V3 m ρ) c]
  show combined (N := 40000) (V3 m ρ c main_arg0) (V3 m ρ c main_v15) (V3 m ρ c main_arg2) (V3 m ρ c main_v16) (V3 m ρ c main_arg4) (V3 m ρ c main_v17) = _
  rw [HostSide.entry1_nodeRows m ρ c, HostSide.entry1_aggRows m ρ c, HostSide.entry1_nodeMat m ρ c, HostSide.entry1_nodeBias m ρ c,
    HostSide.entry1_aggMat m ρ c, HostSide.entry1_aggBias m ρ c, edge_value m ρ c]
  rfl

/-- THE RUN, READ: every weakly fair execution terminates with the result buffer at `value` of the arguments and the
    arguments unchanged. -/
theorem run : θ_run defs (onTc (τ := τ) (main (F := Ideal))) ⟨m, fun _ => 0, ρ⟩ (fun r => ∀ c : Dev nD,
      r.2.mem ((c.tc : Thread nD τ).loc main_v18) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (Named.run_named m ρ)

/-! ## Against the reference's stages -/

open Cert.ReferenceIdeal.Read in
/-- A vector of 128 reshaped to one row is the vector broadcast to one row. -/
theorem asRow_eq (b : (⟨S128, .f32⟩ : BufTy).Contents (Elt Ideal)) :
    HostSide.asRow (F := Ideal) b = Cert.ReferenceIdeal.Read.val_main_v12 (F := Ideal) b := by
  funext i
  rw [Cert.ReferenceIdeal.Read.val_main_v12_apply]
  unfold HostSide.asRow
  exact shapeCast_apply b _ i (Cert.ReferenceIdeal.Read.idx_main_v12 i) (by
    rewrite [Shape.rowMajor_val_one, Shape.rowMajor_val_two]
    have h0 : (i 0).val < 1 := (i 0).isLt
    show (i 1).val = (i 0).val * 128 + (i 1).val
    omega)

/-- The two programs gather the same rows … -/
theorem gather_eq (x : (⟨S40000x128, .f32⟩ : BufTy).Contents (Elt Ideal)) (ei : (⟨S2x640000, .i32⟩ : BufTy).Contents (Elt Ideal)) :
    HostSide.gatherRows (F := Ideal) x ei = Cert.ReferenceIdeal.Read.val_main_v10 (F := Ideal) x ei := rfl

/-- … and scatter-add edge rows the same way. -/
theorem scatter_eq (x0 : (⟨S40000x128, .f32⟩ : BufTy).Contents (Elt Ideal)) (x1 : (⟨S2x640000, .i32⟩ : BufTy).Contents (Elt Ideal))
    (x6 : (⟨S128x128, .f32⟩ : BufTy).Contents (Elt Ideal)) (x7 : (⟨S128, .f32⟩ : BufTy).Contents (Elt Ideal)) :
    HostSide.scatterRows (F := Ideal) x1 (Cert.ReferenceIdeal.Read.val_main_v21 (F := Ideal) x0 x1 x6 x7)
      = Cert.ReferenceIdeal.Read.val_main_v24 (F := Ideal) x0 x1 x6 x7 := rfl

/-- The kernel's function of the arguments is the reference's last stage. -/
theorem value_eq_reference (x0 : (⟨S40000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    value x0 x1 x2 x3 x4 x5 x6 x7 = Cert.ReferenceIdeal.Read.val_main_v34 (F := Ideal) x0 x1 x2 x3 x4 x5 x6 x7 := by
  unfold value
  rw [asRow_eq x3, asRow_eq x5, asRow_eq x7, gather_eq x0 x1, ← Cert.ReferenceIdeal.Stages.edge_rows x0 x1 x6 x7, scatter_eq x0 x1 x6 x7,
    Cert.ReferenceIdeal.Stages.result_rows x0 x1 x2 x3 x4 x5 x6 x7]
  rfl

end Cert.KernelIdeal.Result

end
-- ==== Proof.lean ====
/-
  The certificate of a two-region graph-convolution kernel against its array-language reference.

  Both programs gather the node features at the edges' sources, gate each gathered row by the logistic of its affine
  image, scatter-add the gated rows at the edges' targets, and return the hyperbolic tangent of the sum of two affine
  images, of the node features and of the aggregated rows.  The kernel computes the gate and the final combination in
  two pipelined regions over blocks of 4000 rows; both maps act on a row at a time, so the blocks assemble to the
  whole-array maps (Proof/Arrays.lean).  Over the extended reals the changes of float format are the identity and the
  matrix products are the same sums, so the two results are one function of the arguments (Proof/Result.lean); no
  algebraic law is needed, and the finiteness of the inputs is not used.
-/
import proofs.«131143_j42399917146354_1_alg».proof.Defs
import proofs.«131143_j42399917146354_1_alg».proof.Proof.Gen.Kernel
import proofs.«131143_j42399917146354_1_alg».proof.Proof.Gen.Kernel.Frame
import proofs.«131143_j42399917146354_1_alg».proof.Proof.Gen.KernelIdeal
import proofs.«131143_j42399917146354_1_alg».proof.Proof.Gen.KernelIdeal.Frame
import proofs.«131143_j42399917146354_1_alg».proof.Proof.Gen.ReferenceIdeal
import proofs.«131143_j42399917146354_1_alg».proof.Proof.Gen.ReferenceIdeal.Run
import proofs.«131143_j42399917146354_1_alg».proof.Proof.Gen.ReferenceIdeal.Read
import proofs.«131143_j42399917146354_1_alg».proof.Proof.Gen.Pre_finite_inputs
import proofs.«131143_j42399917146354_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result at one function of them. -/
theorem algebraic : Cert.algebraic_KernelIdeal_ReferenceIdeal := by
  intro m ρ m' ρ' _ hagree
  refine ⟨fun c => Cert.KernelIdeal.Result.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  exact (Cert.ReferenceIdeal.Read.val_main_v34_eq _ _ _ _ _ _ _ _).trans (Cert.KernelIdeal.Result.value_eq_reference _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
